-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) (main_arg2 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Kernel.lean ====
abbrev S16384x1024 : Shape := ⟨2, ![16384, 1024]⟩
abbrev S8x256 : Shape := ⟨2, ![8, 256]⟩
abbrev S512x1024 : Shape := ⟨2, ![512, 1024]⟩
abbrev S8x128 : Shape := ⟨2, ![8, 128]⟩
abbrev S1x1 : Shape := ⟨2, ![1, 1]⟩
abbrev S512 : Shape := ⟨1, ![512]⟩
abbrev S512x1 : Shape := ⟨2, ![512, 1]⟩
abbrev S1 : Shape := ⟨1, ![1]⟩
abbrev S1x256 : Shape := ⟨2, ![1, 256]⟩
abbrev S256 : Shape := ⟨1, ![256]⟩
abbrev S_ : Shape := ⟨0, ![]⟩

abbrev nBuf : Space → Nat
  | .hbm => 21
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S8x256, .f32⟩
  | .hbm, ⟨4, _⟩ => ⟨S8x256, .f32⟩
  | .hbm, ⟨5, _⟩ => ⟨S1x256, .f32⟩
  | .hbm, ⟨6, _⟩ => ⟨S256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x256, .f32⟩
  | .hbm, ⟨12, _⟩ => ⟨S256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S1x1, .f32⟩
  | .local _ .vmem, ⟨11, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  natLt_1_32 : 1 < 32
  reduces_S512x1_S1 : S512x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S8x256_S1x256_0_0 : S8x256.Slices ![0, 0] S1x256
  shapeCasts_S1x256_S256 : S1x256.ShapeCasts S256
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x256.size a
  hwx0_3 : ∀ i : grid0.Coords, EltTy.bits .f32 = 32 ∨ (Rect.block (s := S8x256) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x256.size a
  hwx0_4 : ∀ i : grid0.Coords, EltTy.bits .f32 = 32 ∨ (Rect.block (s := S8x256) S8x128.size (cc0_transform_4 i) (hinb0_4 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16384, .i1⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.RowSpec.lean ====
/-
  The mathematics both programs compute, row by row, on the extended reals.

  For arrays `a`, `p`, `n` with 1024 columns, row `r` has the squared distances
  `d⁺ r = ∑ₖ (a r k − p r k)²` and `d⁻ r = ∑ₖ (a r k − n r k)²`; its loss term is `max (d⁺ r − d⁻ r + margin) 0` and its
  hit term is the comparison `d⁺ r > d⁻ r` read as 0 or 1. The loss is the mean of the loss terms over all rows and
  the accuracy the mean of the hit terms. The number of rows is a parameter: the same definitions read a whole
  16384-row array and a 512-row block of it.
-/
import Idealize.ShloMosaic.PureOps.Ideal
import Idealize.ShloMosaic.Lib.ValueIdx

noncomputable section

open Idealize.ShloMosaic Idealize.ShloMosaic.ValueIdx

namespace Cert.Triplet

/-- An array of `R` rows and 1024 columns of extended reals. -/
abbrev Rows (R : ℕ) : Type := (⟨2, ![R, 1024]⟩ : Shape).Idx → EReal

/-- The squared distance between row `r` of `a` and row `r` of `b`. -/
def sqDist {R : ℕ} (a b : Rows R) (r : Fin R) : EReal :=
  ∑ k : Fin 1024, (a (ix2 r k) - b (ix2 r k)) * (a (ix2 r k) - b (ix2 r k))

/-- The margin, as the one binary32 word both programs carry. -/
def margin : EReal := Ideal.ofBits .f32 0x3E4CCCCD#32

/-- Row `r`'s loss term. -/
def lossRow {R : ℕ} (a p n : Rows R) (r : Fin R) : EReal :=
  max (sqDist a p r - sqDist a n r + margin) 0

/-- Row `r`'s hit term: 1 when the positive is farther than the negative, else 0. -/
def hitRow {R : ℕ} (a p n : Rows R) (r : Fin R) : EReal :=
  (((Ideal.cmp .ogt (sqDist a p r) (sqDist a n r)).toNat : ℝ) : EReal)

/-- A rank-1 index set is its one coordinate's range … -/
def idxEquiv1 {n : ℕ} : (⟨1, ![n]⟩ : Shape).Idx ≃ Fin n where
  toFun i := i 0
  invFun := ix1
  left_inv i := (eq_ix1 i).symm
  right_inv _ := rfl

/-- … so a sum over it is the sum over that coordinate. -/
theorem sum_idx1 {M : Type*} [AddCommMonoid M] {n : ℕ} (f : (⟨1, ![n]⟩ : Shape).Idx → M) :
    ∑ i, f i = ∑ r : Fin n, f (ix1 r) :=
  (Equiv.sum_comp (idxEquiv1 (n := n)).symm f).symm

/-- Rows that agree entry by entry have the same squared distance. -/
theorem sqDist_congr {R R' : ℕ} (a b : Rows R) (a' b' : Rows R') (r : Fin R) (r' : Fin R')
    (ha : ∀ k, a (ix2 r k) = a' (ix2 r' k)) (hb : ∀ k, b (ix2 r k) = b' (ix2 r' k)) :
    sqDist a b r = sqDist a' b' r' := by
  unfold sqDist
  exact Finset.sum_congr rfl fun k _ => by rw [ha k, hb k]

end Cert.Triplet

end
-- ==== Proof.RefSide.lean ====
/-
  The reference, read row by row: its first result is the sum of the rows' loss terms divided by 16384, its second the
  sum of the rows' hit terms divided by 16384. Each host sum starts from the zero word, which is the real number 0,
  and the comparison's one bit converts to 0 or 1.
-/
import proofs.«168964_j128849019170_1_alg».proof.Proof.Gen.ReferenceIdeal.Run
import proofs.«168964_j128849019170_1_alg».proof.Proof.Gen.ReferenceIdeal.Read
import proofs.«168964_j128849019170_1_alg».proof.Proof.RowSpec
import Idealize.ShloMosaic.PureOps.Ideal.Laws

noncomputable section

open Idealize.ShloMosaic Idealize.ShloMosaic.TcCoe Idealize.ShloMosaic.ValueIdx
open Cert.Triplet

namespace Cert.ReferenceIdeal.RefValue

open Cert.ReferenceIdeal Cert.ReferenceIdeal.Gen Cert.ReferenceIdeal.Read

/-- The reference's reduced index with column `k` inserted is row `r`, column `k`. -/
theorem idx_v2 (r : Fin 16384) (k : Fin 1024) : idx_main_v2 (ix1 r) k = ix2 r k :=
  funext fun a => by match a with | ⟨0, _⟩ => rfl | ⟨1, _⟩ => rfl

theorem idx_v5 (r : Fin 16384) (k : Fin 1024) : idx_main_v5 (ix1 r) k = ix2 r k :=
  funext fun a => by match a with | ⟨0, _⟩ => rfl | ⟨1, _⟩ => rfl

/-- The reference's positive squared distance of row `r`. -/
theorem v2_row (A P : (⟨S16384x1024, .f32⟩ : BufTy).Contents (Elt Ideal)) (r : Fin 16384) :
    val_main_v2 (F := Ideal) A P (ix1 r) = sqDist A P r := by
  rw [val_main_v2_apply]
  simp only [val_main_cst_apply, val_main_v1_apply, val_main_v0_apply, idx_v2, Ideal.ofBits_def, Ideal.ofBits_zero_f32,
    zero_add, Ideal.mulf_def, Ideal.subf_def]
  rfl

/-- The reference's negative squared distance of row `r`. -/
theorem v5_row (A N : (⟨S16384x1024, .f32⟩ : BufTy).Contents (Elt Ideal)) (r : Fin 16384) :
    val_main_v5 (F := Ideal) A N (ix1 r) = sqDist A N r := by
  rw [val_main_v5_apply]
  simp only [val_main_cst_0_apply, val_main_v4_apply, val_main_v3_apply, idx_v5, Ideal.ofBits_def, Ideal.ofBits_zero_f32,
    zero_add, Ideal.mulf_def, Ideal.subf_def]
  rfl

/-- The reference's relu'd entry of row `r` is the row's loss term. -/
theorem v9_row (A P N : (⟨S16384x1024, .f32⟩ : BufTy).Contents (Elt Ideal)) (r : Fin 16384) :
    val_main_v9 (F := Ideal) A P N (ix1 r) = lossRow A P N r := by
  rw [val_main_v9_apply, val_main_v8_apply, val_main_v6_apply, v2_row, v5_row, val_main_v7_apply,
    val_main_call0_v0_apply]
  simp only [val_main_cst_1_apply, val_main_call0_cst_apply, Ideal.ofBits_def, Ideal.ofBits_zero_f32,
    Ideal.maximumf_def, Ideal.addf_def, Ideal.subf_def]
  rfl

/-- The reference's converted comparison of row `r` is the row's hit term. -/
theorem v13_row (A P N : (⟨S16384x1024, .f32⟩ : BufTy).Contents (Elt Ideal)) (r : Fin 16384) :
    val_main_v13 (F := Ideal) A P N (ix1 r) = hitRow A P N r := by
  rw [val_main_v13_apply, val_main_v12_apply, v2_row, v5_row]
  rfl

/-- The reference's loss: the rows' loss terms summed, over 16384. -/
theorem loss_eq (A P N : (⟨S16384x1024, .f32⟩ : BufTy).Contents (Elt Ideal)) :
    val_main_v11 (F := Ideal) A P N
      = fun _ => Ideal.div (∑ r : Fin 16384, lossRow A P N r) (Ideal.ofBits .f32 0x46800000#32) := by
  funext i
  rw [val_main_v11_apply, val_main_v10_apply, sum_idx1]
  simp only [val_main_cst_2_apply, val_main_cst_3_apply, v9_row, Ideal.ofBits_def, Ideal.ofBits_zero_f32, zero_add,
    Ideal.hostDivf_def]

/-- The reference's accuracy: the rows' hit terms summed, over 16384. -/
theorem acc_eq (A P N : (⟨S16384x1024, .f32⟩ : BufTy).Contents (Elt Ideal)) :
    val_main_v15 (F := Ideal) A P N
      = fun _ => Ideal.div (∑ r : Fin 16384, hitRow A P N r) (Ideal.ofBits .f32 0x46800000#32) := by
  funext i
  rw [val_main_v15_apply, val_main_v14_apply, sum_idx1]
  simp only [val_main_cst_4_apply, val_main_cst_5_apply, v13_row, Ideal.ofBits_def, Ideal.ofBits_zero_f32, zero_add,
    Ideal.hostDivf_def]

end Cert.ReferenceIdeal.RefValue

end
-- ==== Proof.Pieces.lean ====
import proofs.«168964_j128849019170_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each control case of the body leaves in the two carried 1×1 accumulators and, at a core's last step, in the two
    output blocks — as the body's pure payloads of the three input blocks and of the accumulators' earlier contents.
    A first step stores the zero word and reads it back; every other step reads what the step before left. -/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A core's first step leaves, in the loss accumulator, the step's payload over the freshly stored zero. -/
theorem lossAcc_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 : Vec F S512x1024 .f32) :
    sout0_A_0 c i arg2 harg2 arg3 harg3 arg4 harg4 arg5 harg5 arg6 harg6 arg7 harg7 arg8 harg8 hc0 hc1 x0 x1 x2 = k0_pay8 x0 x1 x2 (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg7.read_unread, harg8.read_unread, View.ld_unit_zero (S := S512x1024) hz, View.ld_unit_zero (S := S1x1) hz, View.readCov_unit_zero (S := S1x1) _ hz]

/-- A core's first step leaves, in the hit accumulator, the step's payload over the freshly stored zero. -/
theorem hitAcc_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 : Vec F S512x1024 .f32) :
    sout0_A_1 c i arg2 harg2 arg3 harg3 arg4 harg4 arg5 harg5 arg6 harg6 arg7 harg7 arg8 harg8 hc0 hc1 x0 x1 x2 = k0_pay1 (k0_pay9 x0 x1 x2 (k0_pay5 (F := F))) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg7.read_unread, harg8.read_unread, View.ld_unit_zero (S := S512x1024) hz, View.ld_unit_zero (S := S1x1) hz, View.readCov_unit_zero (S := S1x1) _ hz]

/-- A middle step adds its payload to what the loss accumulator held. -/
theorem lossAcc_mid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 : Vec F S512x1024 .f32) (xs0 xs1 : Vec F S1x1 .f32) :
    sout0_B_0 c i arg2 harg2 arg3 harg3 arg4 harg4 arg5 harg5 arg6 harg6 arg7 harg7 arg8 harg8 hc0 hc1 x0 x1 x2 xs0 xs1 = k0_pay8 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread, View.ld_unit_zero (S := S512x1024) hz, View.ld_unit_zero (S := S1x1) hz, View.readCov_unit_zero (S := S1x1) _ hz]

/-- A middle step adds its payload to what the hit accumulator held. -/
theorem hitAcc_mid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 : Vec F S512x1024 .f32) (xs0 xs1 : Vec F S1x1 .f32) :
    sout0_B_1 c i arg2 harg2 arg3 harg3 arg4 harg4 arg5 harg5 arg6 harg6 arg7 harg7 arg8 harg8 hc0 hc1 x0 x1 x2 xs0 xs1 = k0_pay1 (k0_pay9 x0 x1 x2 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread, View.ld_unit_zero (S := S512x1024) hz, View.ld_unit_zero (S := S1x1) hz, View.readCov_unit_zero (S := S1x1) _ hz]

/-- A core's last step does the same to the loss accumulator … -/
theorem lossAcc_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 : Vec F S512x1024 .f32) (xs0 xs1 : Vec F S1x1 .f32) :
    sout0_C_0 c i arg2 harg2 arg3 harg3 arg4 harg4 arg5 harg5 arg6 harg6 arg7 harg7 arg8 harg8 hc0 hc1 x0 x1 x2 xs0 xs1 = k0_pay8 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S512x1024) hz, View.ld_unit_zero (S := S1x1) hz, View.readCov_unit_zero (S := S1x1) _ hz]

/-- … and to the hit accumulator, -/
theorem hitAcc_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 : Vec F S512x1024 .f32) (xs0 xs1 : Vec F S1x1 .f32) :
    sout0_C_1 c i arg2 harg2 arg3 harg3 arg4 harg4 arg5 harg5 arg6 harg6 arg7 harg7 arg8 harg8 hc0 hc1 x0 x1 x2 xs0 xs1 = k0_pay1 (k0_pay9 x0 x1 x2 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S512x1024) hz, View.ld_unit_zero (S := S1x1) hz, View.readCov_unit_zero (S := S1x1) _ hz]

/-- and then splats the updated loss accumulator over the first output's block, -/
theorem lossOut_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 : Vec F S512x1024 .f32) (xs0 xs1 : Vec F S1x1 .f32) :
    out0_C_3 c i arg2 harg2 arg3 harg3 arg4 harg4 arg5 harg5 arg6 harg6 arg7 harg7 arg8 harg8 hc0 hc1 x0 x1 x2 xs0 xs1 = k0_pay2 (k0_pay8 x0 x1 x2 xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S512x1024) hz, View.ld_unit_zero (S := S1x1) hz, View.readCov_unit_zero (S := S1x1) _ hz]

/-- and the updated hit accumulator over the second's. -/
theorem hitOut_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 : Vec F S512x1024 .f32) (xs0 xs1 : Vec F S1x1 .f32) :
    out0_C_4 c i arg2 harg2 arg3 harg3 arg4 harg4 arg5 harg5 arg6 harg6 arg7 harg7 arg8 harg8 hc0 hc1 x0 x1 x2 xs0 xs1 = k0_pay3 (k0_pay1 (k0_pay9 x0 x1 x2 xs1)) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S512x1024) hz, View.ld_unit_zero (S := S1x1) hz, View.readCov_unit_zero (S := S1x1) _ hz]

end Cert.KernelIdeal.Pieces

end
-- ==== Proof.TilePay.lean ====
/-
  The body's arithmetic on one 512-row block, read on the extended reals: the two column vectors of squared
  distances are the rows' squared distances; the loss accumulator's new value is its old value plus the block's loss
  terms summed; the hit accumulator's new value is its old value plus the block's hit terms summed; and the two
  splats copy a 1×1 value to every place of an 8×128 block.
-/
import proofs.«168964_j128849019170_1_alg».proof.Proof.Gen.KernelIdeal.Skeleton
import proofs.«168964_j128849019170_1_alg».proof.Proof.RowSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx
open Cert.Triplet

namespace Cert.KernelIdeal.TileValue

open Cert.KernelIdeal Cert.KernelIdeal.Gen

/-- The one index of a 1×1 vector. -/
abbrev i00 : S1x1.Idx := ix2 (0 : Fin 1) (0 : Fin 1)

theorem eq_i00 (j : S1x1.Idx) : j = i00 :=
  funext fun a => Fin.ext (by
    match a with
    | ⟨0, _⟩ => have h : (j 0).val < 1 := (j 0).isLt; show (j 0).val = 0; omega
    | ⟨1, _⟩ => have h : (j 1).val < 1 := (j 1).isLt; show (j 1).val = 0; omega)

/-- Row `q` of a column vector made from a length-512 vector is that vector's entry `q`. -/
theorem column_apply {α : Type} (v : S512.Idx → α) (q : Fin 512) :
    shapeCast S512x1 v shapeCasts_S512_S512x1 (ix2 q (0 : Fin 1)) = v (ix1 q) :=
  shapeCast_apply v shapeCasts_S512_S512x1 (ix2 q (0 : Fin 1)) (ix1 q) (by
    rw [Shape.rowMajor_val_one, Shape.rowMajor_val_two]; simp)

/-- The lane reduction's index for row `q`, column `k`. -/
theorem lift_row (q : Fin 512) (k : Fin 1024) : reduces_S512x1024_S512.lift (ix1 q) k = ix2 q k :=
  funext fun a => Fin.ext (by match a with | ⟨0, _⟩ => rfl | ⟨1, _⟩ => rfl)

/-- Entry `q` of the positive-distance column is row `q`'s squared distance to the positive. -/
theorem pay6_apply (x0 x1 : Vec Ideal S512x1024 .f32) (q : Fin 512) :
    k0_pay6 (F := Ideal) x0 x1 (ix2 q (0 : Fin 1)) = sqDist x0 x1 q := by
  unfold k0_pay6
  refine (column_apply _ q).trans ?_
  refine (Ideal.multiReduction_add_single _ _ reduces_S512x1024_S512 _ _ (ix1 q)).trans ?_
  unfold sqDist
  exact Finset.sum_congr rfl fun k _ => congrArg (mulf (F := Ideal) (subf (F := Ideal) x0 x1) (subf (F := Ideal) x0 x1) : S512x1024.Idx → EReal) (lift_row q k)

/-- Entry `q` of the negative-distance column is row `q`'s squared distance to the negative. -/
theorem pay7_apply (x0 x2 : Vec Ideal S512x1024 .f32) (q : Fin 512) :
    k0_pay7 (F := Ideal) x0 x2 (ix2 q (0 : Fin 1)) = sqDist x0 x2 q := by
  unfold k0_pay7
  refine (column_apply _ q).trans ?_
  refine (Ideal.multiReduction_add_single _ _ reduces_S512x1024_S512 _ _ (ix1 q)).trans ?_
  unfold sqDist
  exact Finset.sum_congr rfl fun k _ => congrArg (mulf (F := Ideal) (subf (F := Ideal) x0 x2) (subf (F := Ideal) x0 x2) : S512x1024.Idx → EReal) (lift_row q k)

/-- A 1×1 vector made from a length-1 vector holds that vector's one entry. -/
theorem one_apply {α : Type} (v : S1.Idx → α) (j : S1x1.Idx) :
    shapeCast S1x1 v shapeCasts_S1_S1x1 j = v (ix1 (0 : Fin 1)) :=
  shapeCast_apply v shapeCasts_S1_S1x1 j (ix1 (0 : Fin 1)) (by
    rw [Shape.rowMajor_val_one, Shape.rowMajor_val_two]
    have h0 : (j 0).val < 1 := (j 0).isLt
    have h1 : (j 1).val < 1 := (j 1).isLt
    show (0 : ℕ) = (j 0).val * 1 + (j 1).val
    omega)

/-- A sum over the rows of a column vector is the sum over its 512 entries. -/
theorem sum_column (f : S512x1.Idx → EReal) : ∑ i, f i = ∑ q : Fin 512, f (ix2 q (0 : Fin 1)) := by
  rw [sum_idx2]
  exact Finset.sum_congr rfl fun q _ => Fin.sum_univ_one _

/-- The loss accumulator's new value: the old one plus the block's loss terms. -/
theorem pay8_apply (x0 x1 x2 : Vec Ideal S512x1024 .f32) (acc : Vec Ideal S1x1 .f32) (j : S1x1.Idx) :
    k0_pay8 (F := Ideal) x0 x1 x2 acc j = acc j + ∑ q : Fin 512, lossRow x0 x1 x2 q := by
  unfold k0_pay8
  (try dsimp only)
  rw [shapeCast_self, addf_apply]
  congr 1
  refine (one_apply _ j).trans ?_
  refine (Ideal.multiReduction_add_total _ _ reduces_S512x1_S1 (fun b => by fin_cases b; rfl) _ _ _).trans ?_
  rw [sum_column]
  refine Finset.sum_congr rfl fun q _ => ?_
  rw [maximumf_apply, addf_apply, subf_apply, pay6_apply, pay7_apply, broadcast_apply, broadcast_apply]
  unfold lossRow margin
  rw [show (Scalar.ofBits (F := Ideal) .f32 0x00000000#32) = (0 : EReal) from Ideal.ofBits_zero_f32]
  rfl

/-- The one bit of a comparison, widened to 32 bits and read as a signed integer, is the bit as a natural number. -/
theorem widen_bit : ∀ b : BitVec 1, (b.setWidth 32).toInt = (b.toNat : ℤ) := by decide

/-- The hit accumulator's new value: the old one plus the block's hit terms. -/
theorem pay9_apply (x0 x1 x2 : Vec Ideal S512x1024 .f32) (acc : Vec Ideal S1x1 .f32) (j : S1x1.Idx) :
    k0_pay9 (F := Ideal) x0 x1 x2 acc j = acc j + ∑ q : Fin 512, hitRow x0 x1 x2 q := by
  unfold k0_pay9
  (try dsimp only)
  rw [addf_apply]
  congr 1
  refine (one_apply _ j).trans ?_
  refine (Ideal.multiReduction_add_total _ _ reduces_S512x1_S1 (fun b => by fin_cases b; rfl) _ _ _).trans ?_
  rw [sum_column]
  refine Finset.sum_congr rfl fun q _ => ?_
  rw [sitofp_apply, extui_apply, cmpf_apply, pay6_apply, pay7_apply]
  unfold hitRow
  show (((((Ideal.cmp .ogt (sqDist x0 x1 q) (sqDist x0 x2 q)).setWidth 32).toInt : ℝ)) : EReal) = _
  rw [widen_bit, Int.cast_natCast]

/-- The re-store of the hit accumulator changes nothing. -/
theorem pay1_eq {F : FTy → Type} [FloatOps F] (v : FVec F S1x1 .f32) : k0_pay1 v = v := by
  unfold k0_pay1
  exact shapeCast_self v _

/-- The splat of a 1×1 value holds it at every place of the 8×128 block. -/
theorem pay2_apply {F : FTy → Type} [FloatOps F] (v : Vec F S1x1 .f32) (y : S8x128.Idx) : k0_pay2 v y = v i00 := by
  unfold k0_pay2
  (try dsimp only)
  rw [shapeCast_self]
  exact broadcastTo_apply v broadcasts_S1x1_S8x128 y i00 (fun a => by
    match a with
    | ⟨0, _⟩ => rfl
    | ⟨1, _⟩ => rfl)

theorem pay3_apply {F : FTy → Type} [FloatOps F] (v : Vec F S1x1 .f32) (y : S8x128.Idx) : k0_pay3 v y = v i00 := by
  unfold k0_pay3
  (try dsimp only)
  rw [shapeCast_self]
  exact broadcastTo_apply v broadcasts_S1x1_S8x128 y i00 (fun a => by
    match a with
    | ⟨0, _⟩ => rfl
    | ⟨1, _⟩ => rfl)

/-- The zero the first step stores is the real number 0. -/
theorem pay4_apply (j : S1x1.Idx) : k0_pay4 (F := Ideal) j = 0 := by
  unfold k0_pay4
  (try dsimp only)
  rw [shapeCast_self, broadcast_apply]
  exact Ideal.ofBits_zero_f32

theorem pay5_apply (j : S1x1.Idx) : k0_pay5 (F := Ideal) j = 0 := by
  unfold k0_pay5
  (try dsimp only)
  rw [shapeCast_self, broadcast_apply]
  exact Ideal.ofBits_zero_f32

end Cert.KernelIdeal.TileValue

end
-- ==== Proof.SumLaws.lean ====
/-
  Sums used on both sides of the triplet-loss equivalence, over any commutative additive monoid, and the one law
  of the extended reals the kernel's read-out needs.

  * a running sum that restarts at every multiple of 16 is, after step `n`, the sum of the steps since the last restart;
  * a sum over `n * k` consecutive naturals is the sum over `n` consecutive runs of length `k`;
  * 256 entries that hold one value on the first 128 places and another on the last 128 add up to 128 copies of each;
  * on the extended reals, 128 copies of `x` divided by 128 is `x`, for every `x` (also for the two infinities).
-/
import Mathlib.Data.EReal.Operations
import Mathlib.Algebra.BigOperators.Intervals
import Mathlib.Algebra.BigOperators.Fin

open Finset

namespace Cert.TripletSums

variable {M : Type*} [AddCommMonoid M]

/-- The running sum of `T` that restarts at every multiple of 16: at such a step it is `T n` alone, at any other
    step the previous value plus `T n`. -/
def restartSum (T : ℕ → M) : ℕ → M
  | 0 => T 0
  | n + 1 => if (n + 1) % 16 = 0 then T (n + 1) else restartSum T n + T (n + 1)

theorem restartSum_zero (T : ℕ → M) : restartSum T 0 = T 0 := rfl

theorem restartSum_restart (T : ℕ → M) (n : ℕ) (h : (n + 1) % 16 = 0) : restartSum T (n + 1) = T (n + 1) := by
  rw [restartSum, if_pos h]

theorem restartSum_step (T : ℕ → M) (n : ℕ) (h : ¬(n + 1) % 16 = 0) :
    restartSum T (n + 1) = restartSum T n + T (n + 1) := by
  rw [restartSum, if_neg h]

/-- After step `n` the running sum holds the steps since the last multiple of 16, that one included. -/
theorem restartSum_eq (T : ℕ → M) : ∀ n, restartSum T n = ∑ i ∈ range (n % 16 + 1), T (n - n % 16 + i)
  | 0 => by simp [restartSum]
  | n + 1 => by
    by_cases h : (n + 1) % 16 = 0
    · rw [restartSum_restart T n h, h]; simp
    · rw [restartSum_step T n h, restartSum_eq T n]
      have h1 : (n + 1) % 16 = n % 16 + 1 := by omega
      have h2 : n + 1 - (n + 1) % 16 = n - n % 16 := by omega
      have h2' : n + 1 - (n % 16 + 1) = n - n % 16 := by omega
      rw [h1, h2', sum_range_succ _ (n % 16 + 1)]
      congr 2
      omega

/-- The two values the kernel reads out: after steps 15 and 31 the running sum holds steps 0–15 and 16–31. -/
theorem restartSum_15 (T : ℕ → M) : restartSum T 15 = ∑ i ∈ range 16, T i := by
  rw [restartSum_eq]; exact sum_congr rfl fun i _ => by congr 1; omega

theorem restartSum_31 (T : ℕ → M) : restartSum T 31 = ∑ i ∈ range 16, T (16 + i) := by
  rw [restartSum_eq]

/-- A sum over `n * k` consecutive naturals, cut into `n` runs of length `k`. -/
theorem sum_range_mul_runs (f : ℕ → M) (k : ℕ) : ∀ n, ∑ r ∈ range (n * k), f r = ∑ t ∈ range n, ∑ q ∈ range k, f (k * t + q)
  | 0 => by simp
  | n + 1 => by
    rw [Nat.succ_mul, sum_range_add, sum_range_mul_runs f k n, sum_range_succ]
    congr 1
    exact sum_congr rfl fun q _ => by rw [Nat.mul_comm]

/-- Both read-outs together are the sum over all 32 runs. -/
theorem restartSum_15_add_31 (T : ℕ → M) : restartSum T 15 + restartSum T 31 = ∑ t ∈ range 32, T t := by
  rw [restartSum_15, restartSum_31, show (32 : ℕ) = 16 + 16 from rfl, sum_range_add]

/-- 256 places holding `L 0` on places 0–127 and `L 1` on places 128–255. -/
theorem sum_two_halves (L : ℕ → M) : ∑ j ∈ range 256, L (j / 128) = 128 • L 0 + 128 • L 1 := by
  rw [show (256 : ℕ) = 128 + 128 from rfl, sum_range_add]
  congr 1
  · rw [sum_congr rfl fun j hj => show L (j / 128) = L 0 from by
      have := mem_range.mp hj; congr 1; omega]
    rw [sum_const, card_range]
  · rw [sum_congr rfl fun j hj => show L ((128 + j) / 128) = L 1 from by
      have := mem_range.mp hj; congr 1; omega]
    rw [sum_const, card_range]

/-- On the extended reals 128 copies of `x`, divided by 128, is `x`: for a real by arithmetic, and each infinity
    stays itself under a positive factor. -/
theorem ereal_128_nsmul_mul_inv (x : EReal) : (128 • x) * (((1 / 128 : ℝ)) : EReal) = x := by
  rw [EReal.nsmul_eq_mul]
  induction x using EReal.rec with
  | bot =>
    rw [show ((128 : ℕ) : EReal) = ((128 : ℝ) : EReal) from by norm_cast,
      EReal.coe_mul_bot_of_pos (by norm_num), EReal.bot_mul_coe_of_pos (by norm_num)]
  | top =>
    rw [show ((128 : ℕ) : EReal) = ((128 : ℝ) : EReal) from by norm_cast,
      EReal.coe_mul_top_of_pos (by norm_num), EReal.top_mul_coe_of_pos (by norm_num)]
  | coe r =>
    rw [show ((128 : ℕ) : EReal) = ((128 : ℝ) : EReal) from by norm_cast, ← EReal.coe_mul, ← EReal.coe_mul]
    congr 1
    ring

end Cert.TripletSums
-- ==== Proof.Accum.lean ====
/-
  The two carried accumulators, step by step, and the two output arrays after the run.

  Grid step `t` (0 ≤ t < 32, steps 0–15 on the first core's half, 16–31 on the second's) reads rows 512·t … 512·t + 511
  of the three arrays. After step `t` the loss accumulator holds the sum of the loss terms of the steps since the last
  multiple of 16 (the body zeroes it there), and the hit accumulator the hit terms likewise. Steps 15 and 31 splat the
  two accumulators over column blocks 0 and 1 of the two 8×256 outputs, so every entry of an output in columns
  128·k … 128·k + 127 holds half `k`'s total.
-/
import proofs.«168964_j128849019170_1_alg».proof.Proof.Pieces
import proofs.«168964_j128849019170_1_alg».proof.Proof.TilePay
import proofs.«168964_j128849019170_1_alg».proof.Proof.SumLaws
import Idealize.ShloMosaic.Lib.Pipeline.Value

noncomputable section

open Idealize.ShloMosaic Idealize.ShloMosaic.TcCoe Idealize.ShloMosaic.ValueIdx Idealize.SL.Sem
open Idealize.ShloMosaic.Pipeline (Dat)
open Cert.Triplet Cert.TripletSums

namespace Cert.KernelIdeal.Accum

open Cert.KernelIdeal Cert.KernelIdeal.Gen Cert.KernelIdeal.TileValue

variable (m : (ℓ : Loc nD τ sig) → Buf (Elt Ideal) ℓ)

/-- The three argument arrays as the region finds them, and each one's block at a grid step. -/
abbrev arrA (c : Dev nD) : Rows 16384 := V m c main_arg0
abbrev arrP (c : Dev nD) : Rows 16384 := V m c main_arg1
abbrev arrN (c : Dev nD) : Rows 16384 := V m c main_arg2
abbrev blkA (c : Dev nD) (t : Fin cfg0.N) : Vec Ideal S512x1024 .f32 := iblk m c 0 t
abbrev blkP (c : Dev nD) (t : Fin cfg0.N) : Vec Ideal S512x1024 .f32 := iblk m c 1 t
abbrev blkN (c : Dev nD) (t : Fin cfg0.N) : Vec Ideal S512x1024 .f32 := iblk m c 2 t

/-- Step `t` reads row block `t`, column block 0, of each input. -/
theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_in2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
/-- Step `t` writes row block 0, column block `t / 16`, of each output. -/
theorem idx_out3 : ∀ t : Fin cfg0.N, win0_3.index t (0 : Fin 2) = 0 ∧ win0_3.index t (1 : Fin 2) = t.val / 16 :=
  (by decide +kernel : ∀ t : Fin grid0.N, win0_3.index t (0 : Fin 2) = 0 ∧ win0_3.index t (1 : Fin 2) = t.val / 16)
theorem idx_out4 : ∀ t : Fin cfg0.N, win0_4.index t (0 : Fin 2) = 0 ∧ win0_4.index t (1 : Fin 2) = t.val / 16 :=
  (by decide +kernel : ∀ t : Fin grid0.N, win0_4.index t (0 : Fin 2) = 0 ∧ win0_4.index t (1 : Fin 2) = t.val / 16)

/-- Entry (q, k) of step `t`'s block is entry (512·t + q, k) of the array. -/
theorem blkA_apply (c : Dev nD) (t : Fin cfg0.N) (q : Fin 512) (k : Fin 1024) (h : 512 * t.val + q.val < 16384) :
    blkA m c t (ix2 q k) = arrA m c (ix2 ⟨512 * t.val + q.val, h⟩ k) := by
  show iblk m c 0 t (ix2 q k) = _
  unfold iblk
  rw [View.read_apply]
  show V m c main_arg0 (((cfg0.win 0).blk t).view.emb (ix2 q k)) = V m c main_arg0 _
  refine congrArg _ (funext fun a => Fin.ext ?_)
  match a with
  | ⟨0, _⟩ => show win0_0.index t 0 * 512 + 1 * q.val = 512 * t.val + q.val; rw [(idx_in0 t).1]; omega
  | ⟨1, _⟩ => show win0_0.index t 1 * 1024 + 1 * k.val = k.val; rw [(idx_in0 t).2]; omega

theorem blkP_apply (c : Dev nD) (t : Fin cfg0.N) (q : Fin 512) (k : Fin 1024) (h : 512 * t.val + q.val < 16384) :
    blkP m c t (ix2 q k) = arrP m c (ix2 ⟨512 * t.val + q.val, h⟩ k) := by
  show iblk m c 1 t (ix2 q k) = _
  unfold iblk
  rw [View.read_apply]
  show V m c main_arg1 (((cfg0.win 1).blk t).view.emb (ix2 q k)) = V m c main_arg1 _
  refine congrArg _ (funext fun a => Fin.ext ?_)
  match a with
  | ⟨0, _⟩ => show win0_1.index t 0 * 512 + 1 * q.val = 512 * t.val + q.val; rw [(idx_in1 t).1]; omega
  | ⟨1, _⟩ => show win0_1.index t 1 * 1024 + 1 * k.val = k.val; rw [(idx_in1 t).2]; omega

theorem blkN_apply (c : Dev nD) (t : Fin cfg0.N) (q : Fin 512) (k : Fin 1024) (h : 512 * t.val + q.val < 16384) :
    blkN m c t (ix2 q k) = arrN m c (ix2 ⟨512 * t.val + q.val, h⟩ k) := by
  show iblk m c 2 t (ix2 q k) = _
  unfold iblk
  rw [View.read_apply]
  show V m c main_arg2 (((cfg0.win 2).blk t).view.emb (ix2 q k)) = V m c main_arg2 _
  refine congrArg _ (funext fun a => Fin.ext ?_)
  match a with
  | ⟨0, _⟩ => show win0_2.index t 0 * 512 + 1 * q.val = 512 * t.val + q.val; rw [(idx_in2 t).1]; omega
  | ⟨1, _⟩ => show win0_2.index t 1 * 1024 + 1 * k.val = k.val; rw [(idx_in2 t).2]; omega

/-- Row `r`'s loss term and hit term as functions of a natural number (0 past the last row). -/
def rowL (c : Dev nD) (r : ℕ) : EReal := if h : r < 16384 then lossRow (arrA m c) (arrP m c) (arrN m c) ⟨r, h⟩ else 0
def rowH (c : Dev nD) (r : ℕ) : EReal := if h : r < 16384 then hitRow (arrA m c) (arrP m c) (arrN m c) ⟨r, h⟩ else 0
/-- Step `t`'s share: the terms of its 512 rows, summed. -/
def tileL (c : Dev nD) (t : ℕ) : EReal := ∑ q ∈ Finset.range 512, rowL m c (512 * t + q)
def tileH (c : Dev nD) (t : ℕ) : EReal := ∑ q ∈ Finset.range 512, rowH m c (512 * t + q)

theorem block_sqDistP (c : Dev nD) (t : Fin cfg0.N) (q : Fin 512) (h : 512 * t.val + q.val < 16384) :
    sqDist (blkA m c t) (blkP m c t) q = sqDist (arrA m c) (arrP m c) ⟨512 * t.val + q.val, h⟩ :=
  sqDist_congr _ _ _ _ q _ (fun k => blkA_apply m c t q k h) (fun k => blkP_apply m c t q k h)

theorem block_sqDistN (c : Dev nD) (t : Fin cfg0.N) (q : Fin 512) (h : 512 * t.val + q.val < 16384) :
    sqDist (blkA m c t) (blkN m c t) q = sqDist (arrA m c) (arrN m c) ⟨512 * t.val + q.val, h⟩ :=
  sqDist_congr _ _ _ _ q _ (fun k => blkA_apply m c t q k h) (fun k => blkN_apply m c t q k h)

/-- The block's loss terms, summed, are step `t`'s share of the loss. -/
theorem tile_loss (c : Dev nD) (t : Fin cfg0.N) :
    ∑ q : Fin 512, lossRow (blkA m c t) (blkP m c t) (blkN m c t) q = tileL m c t.val := by
  unfold tileL
  rw [← Fin.sum_univ_eq_sum_range (fun q => rowL m c (512 * t.val + q)) 512]
  refine Finset.sum_congr rfl fun q _ => ?_
  have hN : t.val < 32 := lt_of_lt_of_eq t.isLt (show cfg0.N = 32 from N_0)
  have h : 512 * t.val + q.val < 16384 := by have := q.isLt; omega
  unfold rowL
  rw [dif_pos h]
  unfold lossRow
  rw [block_sqDistP m c t q h, block_sqDistN m c t q h]

/-- The block's hit terms, summed, are step `t`'s share of the hits. -/
theorem tile_hit (c : Dev nD) (t : Fin cfg0.N) :
    ∑ q : Fin 512, hitRow (blkA m c t) (blkP m c t) (blkN m c t) q = tileH m c t.val := by
  unfold tileH
  rw [← Fin.sum_univ_eq_sum_range (fun q => rowH m c (512 * t.val + q)) 512]
  refine Finset.sum_congr rfl fun q _ => ?_
  have hN : t.val < 32 := lt_of_lt_of_eq t.isLt (show cfg0.N = 32 from N_0)
  have h : 512 * t.val + q.val < 16384 := by have := q.isLt; omega
  unfold rowH
  rw [dif_pos h]
  unfold hitRow
  rw [block_sqDistP m c t q h, block_sqDistN m c t q h]

theorem pay8_tile (c : Dev nD) (t : Fin cfg0.N) (acc : Vec Ideal S1x1 .f32) :
    k0_pay8 (F := Ideal) (blkA m c t) (blkP m c t) (blkN m c t) acc = fun j => acc j + tileL m c t.val := by
  funext j; rw [pay8_apply, tile_loss]

theorem pay9_tile (c : Dev nD) (t : Fin cfg0.N) (acc : Vec Ideal S1x1 .f32) :
    k0_pay9 (F := Ideal) (blkA m c t) (blkP m c t) (blkN m c t) acc = fun j => acc j + tileH m c t.val := by
  funext j; rw [pay9_apply, tile_hit]

/-- A step at a multiple of 16 leaves its own share in each accumulator. -/
theorem first_point (c : Dev nD) (t : Fin cfg0.N) (h0 : t.val % 16 = 0) (h1 : ¬t.val % 16 = 15) :
    (outsAt0 m c t.val t.isLt).2.2.1 = (fun _ => tileL m c t.val)
    ∧ (outsAt0 m c t.val t.isLt).2.2.2 = (fun _ => tileH m c t.val) := by
  rw [outsAt0_A m c t h0 h1]
  dsimp only
  constructor
  · rw [Pieces.lossAcc_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)]
    refine (pay8_tile m c t _).trans ?_
    funext j; rw [pay4_apply, zero_add]
  · rw [Pieces.hitAcc_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), pay1_eq]
    refine (pay9_tile m c t _).trans ?_
    funext j; rw [pay5_apply, zero_add]

/-- Any other step adds its share to what the step before left. -/
theorem later_point (c : Dev nD) (t : Fin cfg0.N) (h0 : ¬t.val % 16 = 0) :
    (outsAt0 m c t.val t.isLt).2.2.1
        = (fun j => (outsAt0 m c (t.val - 1) (Nat.lt_of_le_of_lt (Nat.sub_le _ _) t.isLt)).2.2.1 j + tileL m c t.val)
    ∧ (outsAt0 m c t.val t.isLt).2.2.2
        = (fun j => (outsAt0 m c (t.val - 1) (Nat.lt_of_le_of_lt (Nat.sub_le _ _) t.isLt)).2.2.2 j + tileH m c t.val) := by
  by_cases h1 : t.val % 16 = 15
  · rw [outsAt0_C m c t h0 h1]
    dsimp only
    constructor
    · rw [Pieces.lossAcc_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t)]
      exact pay8_tile m c t _
    · rw [Pieces.hitAcc_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t), pay1_eq]
      exact pay9_tile m c t _
  · rw [outsAt0_B m c t h0 h1]
    dsimp only
    constructor
    · rw [Pieces.lossAcc_mid c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t)]
      exact pay8_tile m c t _
    · rw [Pieces.hitAcc_mid c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t), pay1_eq]
      exact pay9_tile m c t _

/-- A core's last step leaves, at every place of each output block, the accumulator it has just updated. -/
theorem last_point (c : Dev nD) (t : Fin cfg0.N) (h0 : ¬t.val % 16 = 0) (h1 : t.val % 16 = 15) :
    (outsAt0 m c t.val t.isLt).1 = (fun _ => (outsAt0 m c t.val t.isLt).2.2.1 i00)
    ∧ (outsAt0 m c t.val t.isLt).2.1 = (fun _ => (outsAt0 m c t.val t.isLt).2.2.2 i00) := by
  rw [outsAt0_C m c t h0 h1]
  dsimp only
  constructor
  · rw [Pieces.lossOut_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t),
      Pieces.lossAcc_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t)]
    funext y; exact pay2_apply _ y
  · rw [Pieces.hitOut_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t),
      Pieces.hitAcc_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t)]
    funext y; exact pay3_apply _ y

/-- THE ACCUMULATION: after step `n` the accumulators hold the running sums that restart at every multiple of 16. -/
theorem acc_eq (c : Dev nD) : ∀ (n : ℕ) (h : n < cfg0.N),
    (outsAt0 m c n h).2.2.1 = (fun _ => restartSum (tileL m c) n)
    ∧ (outsAt0 m c n h).2.2.2 = (fun _ => restartSum (tileH m c) n)
  | 0, h => first_point m c ⟨0, h⟩ rfl (by show ¬(0 % 16 = 15); decide)
  | n + 1, h => by
    by_cases h0 : (n + 1) % 16 = 0
    · have h1 : ¬(n + 1) % 16 = 15 := by omega
      rw [restartSum_restart _ n h0, restartSum_restart _ n h0]
      exact first_point m c ⟨n + 1, h⟩ h0 h1
    · obtain ⟨e0, e1⟩ := later_point m c ⟨n + 1, h⟩ h0
      obtain ⟨i0, i1⟩ := acc_eq c n (Nat.lt_of_succ_lt h)
      rw [restartSum_step _ n h0, restartSum_step _ n h0]
      refine ⟨e0.trans ?_, e1.trans ?_⟩
      · funext j
        show (outsAt0 m c n _).2.2.1 j + _ = _
        rw [i0]
      · funext j
        show (outsAt0 m c n _).2.2.2 j + _ = _
        rw [i1]

/-- Half `k`'s totals: the running sums after the half's last step. -/
def halfL (c : Dev nD) (k : ℕ) : EReal := restartSum (tileL m c) (16 * k + 15)
def halfH (c : Dev nD) (k : ℕ) : EReal := restartSum (tileH m c) (16 * k + 15)

/-- The two output arrays after the run: column `j` holds the total of half `j / 128`. -/
def outL (c : Dev nD) : Buf (Elt Ideal) ((c : Thread nD τ).loc main_v0_0) := fun y => halfL m c ((y 1).val / 128)
def outH (c : Dev nD) : Buf (Elt Ideal) ((c : Thread nD τ).loc main_v0_1) := fun y => halfH m c ((y 1).val / 128)

/-- What a half's last step writes back is its block of `outL`. -/
theorem flushed3_eq (c : Dev nD) (t : Fin cfg0.N) (hf : (cfg0.win 3).flush t = true) :
    (dats m 0 c).flushed 3 t = ((cfg0.win 3).blk t).view.read (Elt Ideal) (outL m c) := by
  have h1 : t.val % 16 = 15 := (flush0_3 t).mp hf
  have h0 : ¬t.val % 16 = 0 := by omega
  show (cfg0.win 3).cut (grid0.coords t) ((dats m 0 c).after 3 t) = _
  rw [after0_3, (last_point m c t h0 h1).1, (acc_eq m c t.val t.isLt).1]
  funext j
  show restartSum (tileL m c) t.val = outL m c (((cfg0.win 3).blk t).view.emb j)
  unfold outL halfL
  have he : ((((cfg0.win 3).blk t).view.emb j) 1).val = win0_3.index t 1 * 128 + 1 * (j 1).val := rfl
  have hj : (j 1).val < 128 := (j 1).isLt
  rw [he, (idx_out3 t).2]
  congr 1
  omega

theorem flushed4_eq (c : Dev nD) (t : Fin cfg0.N) (hf : (cfg0.win 4).flush t = true) :
    (dats m 0 c).flushed 4 t = ((cfg0.win 4).blk t).view.read (Elt Ideal) (outH m c) := by
  have h1 : t.val % 16 = 15 := (flush0_4 t).mp hf
  have h0 : ¬t.val % 16 = 0 := by omega
  show (cfg0.win 4).cut (grid0.coords t) ((dats m 0 c).after 4 t) = _
  rw [after0_4, (last_point m c t h0 h1).2, (acc_eq m c t.val t.isLt).2]
  funext j
  show restartSum (tileH m c) t.val = outH m c (((cfg0.win 4).blk t).view.emb j)
  unfold outH halfH
  have he : ((((cfg0.win 4).blk t).view.emb j) 1).val = win0_4.index t 1 * 128 + 1 * (j 1).val := rfl
  have hj : (j 1).val < 128 := (j 1).isLt
  rw [he, (idx_out4 t).2]
  congr 1
  omega

/-- An index of an output is in step `t`'s block iff each coordinate is in the block's range on its axis. -/
theorem mem_blk3 (t : Fin cfg0.N) (i : S8x256.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_0).slice (win0_3.rect t)).set ↔ _
  rw [View.set_slice_whole, Rect.mem_set_unit]
  exact Iff.rfl

theorem mem_blk4 (t : Fin cfg0.N) (i : S8x256.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_1).slice (win0_4.rect t)).set ↔ _
  rw [View.set_slice_whole, Rect.mem_set_unit]
  exact Iff.rfl

/-- The step that writes column block `k`. -/
def lastOf (k : ℕ) (hk : k < 2) : Fin cfg0.N := ⟨16 * k + 15, by rw [show cfg0.N = 32 from N_0]; omega⟩

/-- The first output after the run. -/
theorem final3 (c : Dev nD) : (dats m 0 c).arrAt 3 cfg0.N = outL m c :=
  (dats m 0 c).arrAt_eq_of_cover 3 (outL m c) (flushed3_eq m c) fun i => by
    have hi0 : (i 0).val < 8 := (i 0).isLt
    have hi1 : (i 1).val < 256 := (i 1).isLt
    refine ⟨lastOf ((i 1).val / 128) (by omega), (flush0_3 _).mpr (by show (16 * ((i 1).val / 128) + 15) % 16 = 15; omega), ?_⟩
    rw [mem_blk3]
    have e0 := (idx_out3 (lastOf ((i 1).val / 128) (by omega))).1
    have e1 : win0_3.index (lastOf ((i 1).val / 128) (by omega)) 1 = (16 * ((i 1).val / 128) + 15) / 16 :=
      (idx_out3 (lastOf ((i 1).val / 128) (by omega))).2
    intro a
    match a with
    | ⟨0, _⟩ => show win0_3.index _ 0 * 8 ≤ (i 0).val ∧ (i 0).val < win0_3.index _ 0 * 8 + 8; rw [e0]; omega
    | ⟨1, _⟩ => show win0_3.index _ 1 * 128 ≤ (i 1).val ∧ (i 1).val < win0_3.index _ 1 * 128 + 128; rw [e1]; omega

/-- The second output after the run. -/
theorem final4 (c : Dev nD) : (dats m 0 c).arrAt 4 cfg0.N = outH m c :=
  (dats m 0 c).arrAt_eq_of_cover 4 (outH m c) (flushed4_eq m c) fun i => by
    have hi0 : (i 0).val < 8 := (i 0).isLt
    have hi1 : (i 1).val < 256 := (i 1).isLt
    refine ⟨lastOf ((i 1).val / 128) (by omega), (flush0_4 _).mpr (by show (16 * ((i 1).val / 128) + 15) % 16 = 15; omega), ?_⟩
    rw [mem_blk4]
    have e0 := (idx_out4 (lastOf ((i 1).val / 128) (by omega))).1
    have e1 : win0_4.index (lastOf ((i 1).val / 128) (by omega)) 1 = (16 * ((i 1).val / 128) + 15) / 16 :=
      (idx_out4 (lastOf ((i 1).val / 128) (by omega))).2
    intro a
    match a with
    | ⟨0, _⟩ => show win0_4.index _ 0 * 8 ≤ (i 0).val ∧ (i 0).val < win0_4.index _ 0 * 8 + 8; rw [e0]; omega
    | ⟨1, _⟩ => show win0_4.index _ 1 * 128 ≤ (i 1).val ∧ (i 1).val < win0_4.index _ 1 * 128 + 128; rw [e1]; omega

end Cert.KernelIdeal.Accum

end
-- ==== Proof.Tail.lean ====
/-
  The read-out after the region and the kernel's two results.

  The host takes row 0 of each 8×256 output (256 numbers: half 0's total 128 times, then half 1's total 128 times), adds
  them up, divides by 128 and then by 16384. On the extended reals 128 copies of a number divided by 128 is that number,
  so the first quotient is the two halves' totals added, which is the sum over all 16384 rows.
-/
import proofs.«168964_j128849019170_1_alg».proof.Proof.Accum
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)
open Cert.Triplet Cert.TripletSums

namespace Cert.KernelIdeal.Tail

open Cert.KernelIdeal Cert.KernelIdeal.Gen Cert.KernelIdeal.TileValue Cert.KernelIdeal.Accum

/-- The word `128.0` is the real number 128. -/
theorem ofBits_128 : Ideal.ofBits .f32 0x43000000#32 = ((128 : ℝ) : EReal) := by
  simp [Ideal.ofBits, Ideal.ieee, -EReal.coe_mul]; norm_num

/-- Entry `r` of row 0 of an 8×256 array, flattened. -/
theorem row0_apply (O : S8x256.Idx → EReal) (r : Fin 256) :
    shapeCast S256 (extractStridedSlice S1x256 ![0, 0] O slices_S8x256_S1x256_0_0) shapeCasts_S1x256_S256 (ix1 r)
      = O (ix2 (0 : Fin 8) r) := by
  refine (shapeCast_apply _ shapeCasts_S1x256_S256 (ix1 r) (ix2 (0 : Fin 1) r) ?_).trans ?_
  · rw [Shape.rowMajor_val_one, Shape.rowMajor_val_two]
    show (0 : ℕ) * 256 + r.val = r.val
    omega
  · exact extractStridedSlice_apply _ O slices_S8x256_S1x256_0_0 (ix2 (0 : Fin 1) r) (ix2 (0 : Fin 8) r) (fun a => by
      match a with
      | ⟨0, _⟩ => rfl
      | ⟨1, _⟩ => show r.val = 0 + r.val; omega)

/-- THE READ-OUT: of an output whose column `j` holds `L (j / 128)`, row 0 summed and divided by 128 is `L 0 + L 1`. -/
theorem readout (L : ℕ → EReal) (O : S8x256.Idx → EReal) (hO : ∀ y, O y = L ((y 1).val / 128)) :
    Host.divf (F := Ideal) (Host.reduceAdd (F := Ideal)
        (shapeCast S256 (extractStridedSlice S1x256 ![0, 0] O slices_S8x256_S1x256_0_0) shapeCasts_S1x256_S256)
        (constant (F := Ideal) S_ .f32 0x00000000#32) reducesTo_S256_S_d0 h_S_) (constant (F := Ideal) S_ .f32 0x43000000#32)
      = fun _ => L 0 + L 1 := by
  funext i
  show Ideal.div (Ideal.hostReduceAdd reducesTo_S256_S_d0 _ _ i) (Ideal.ofBits .f32 0x43000000#32) = _
  rw [Ideal.hostReduceAdd_total reducesTo_S256_S_d0 (fun b => b.elim0), sum_idx1]
  simp only [row0_apply, hO]
  show Ideal.div (Ideal.ofBits .f32 0x00000000#32 + ∑ r : Fin 256, L (r.val / 128)) _ = _
  rw [Ideal.ofBits_zero_f32, zero_add, Fin.sum_univ_eq_sum_range (fun r => L (r / 128)) 256, sum_two_halves, ← nsmul_add,
    ofBits_128, Ideal.div_coe (by norm_num : (128 : ℝ) ≠ 0), ereal_128_nsmul_mul_inv]

variable (m : (ℓ : Loc nD τ sig) → Buf (Elt Ideal) ℓ)

/-- Both halves' loss totals together are the sum of all rows' loss terms. -/
theorem halves_loss (c : Dev nD) :
    halfL m c 0 + halfL m c 1 = ∑ r : Fin 16384, lossRow (arrA m c) (arrP m c) (arrN m c) r := by
  show restartSum (tileL m c) 15 + restartSum (tileL m c) 31 = _
  rw [restartSum_15_add_31]
  unfold tileL
  rw [← sum_range_mul_runs (rowL m c) 512 32, ← Fin.sum_univ_eq_sum_range (rowL m c) (32 * 512)]
  exact Finset.sum_congr rfl fun r _ => dif_pos r.isLt

/-- Both halves' hit totals together are the sum of all rows' hit terms. -/
theorem halves_hit (c : Dev nD) :
    halfH m c 0 + halfH m c 1 = ∑ r : Fin 16384, hitRow (arrA m c) (arrP m c) (arrN m c) r := by
  show restartSum (tileH m c) 15 + restartSum (tileH m c) 31 = _
  rw [restartSum_15_add_31]
  unfold tileH
  rw [← sum_range_mul_runs (rowH m c) 512 32, ← Fin.sum_univ_eq_sum_range (rowH m c) (32 * 512)]
  exact Finset.sum_congr rfl fun r _ => dif_pos r.isLt

/-- The kernel's first result. -/
theorem loss_result (c : Dev nD) :
    Pipeline.afterTail₀ cfgs (dats m) 0 (V0 m) [hostOps1] c main_v9
      = fun _ => Ideal.div (∑ r : Fin 16384, lossRow (arrA m c) (arrP m c) (arrN m c) r) (Ideal.ofBits .f32 0x46800000#32) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v0_0)
      = outL m c :=
    (Pipeline.withArrays_arr spec0 launch0.win.arr_inj c _ _ 3).trans (final3 m c)
  rw [e]
  refine (congrArg (fun x => Host.divf (F := Ideal) x (constant (F := Ideal) S_ .f32 0x46800000#32))
    (readout (halfL m c) (outL m c) (fun y => rfl))).trans ?_
  funext i
  show Ideal.div (halfL m c 0 + halfL m c 1) _ = _
  rw [halves_loss]
  rfl

/-- The kernel's second result. -/
theorem hit_result (c : Dev nD) :
    Pipeline.afterTail₀ cfgs (dats m) 0 (V0 m) [hostOps1] c main_v10
      = fun _ => Ideal.div (∑ r : Fin 16384, hitRow (arrA m c) (arrP m c) (arrN m c) r) (Ideal.ofBits .f32 0x46800000#32) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v0_1)
      = outH m c :=
    (Pipeline.withArrays_arr spec0 launch0.win.arr_inj c _ _ 4).trans (final4 m c)
  rw [e]
  refine (congrArg (fun x => Host.divf (F := Ideal) x (constant (F := Ideal) S_ .f32 0x46800000#32))
    (readout (halfH m c) (outH m c) (fun y => rfl))).trans ?_
  funext i
  show Ideal.div (halfH m c 0 + halfH m c 1) _ = _
  rw [halves_hit]
  rfl

/-- THE RUN, READ: the two results at the means over all rows, the three arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v9)
        = (fun _ => Ideal.div (∑ r : Fin 16384, lossRow (arrA m c) (arrP m c) (arrN m c) r) (Ideal.ofBits .f32 0x46800000#32))
      ∧ r.2.mem ((c.tc : Thread nD τ).loc main_v10)
        = (fun _ => Ideal.div (∑ r : Fin 16384, hitRow (arrA m c) (arrP m c) (arrN m c) r) (Ideal.ofBits .f32 0x46800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 rfl (fun w => by fin_cases w <;> decide))).trans (loss_result m c),
      ((h c).2 main_v10 (Pipeline.mem_restRefs_of main_v10 rfl (fun w => by fin_cases w <;> decide))).trans (hit_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Tail

end
-- ==== Proof.lean ====
/-
  The certificate of the triplet-margin loss and accuracy kernel against its jnp reference.

  Both programs take three 16384×1024 arrays `a`, `p`, `n`. Row `r` has the squared distances
  `d⁺ r = ∑ₖ (a r k − p r k)²` and `d⁻ r = ∑ₖ (a r k − n r k)²`; the results are the mean over the rows of
  `max (d⁺ r − d⁻ r + margin) 0` and the mean of the comparison `d⁺ r > d⁻ r` read as 0 or 1.

  The reference computes exactly that (Proof/RefSide.lean, over the reference's run and its read-at-an-index lemmas). The
  kernel walks 32 blocks of 512 rows, 16 per core half, keeping two running sums that restart at each half's first block
  (Proof/Pieces.lean, Proof/TilePay.lean, Proof/Accum.lean), splats each half's totals over a 8×128 block of its outputs, and
  the host adds up a row of 256 such entries, divides by 128 and by 16384 (Proof/Tail.lean). On the extended reals sums
  regroup freely, and 128 copies of any value divided by 128 is that value (Proof/SumLaws.lean), so both sides are the
  same two numbers; no finiteness of the inputs is needed.

  The three frames: the two kernel programs' from their frame certificates, the reference's from its run. The
  idealization rewrote nothing, so `preserves` is trivial.
-/
import proofs.«168964_j128849019170_1_alg».proof.Defs
import proofs.«168964_j128849019170_1_alg».proof.Proof.Gen.Kernel
import proofs.«168964_j128849019170_1_alg».proof.Proof.Gen.Kernel.Skeleton
import proofs.«168964_j128849019170_1_alg».proof.Proof.Gen.Kernel.Launch
import proofs.«168964_j128849019170_1_alg».proof.Proof.Gen.Kernel.Points
import proofs.«168964_j128849019170_1_alg».proof.Proof.Gen.Kernel.Frame
import proofs.«168964_j128849019170_1_alg».proof.Proof.Gen.KernelIdeal
import proofs.«168964_j128849019170_1_alg».proof.Proof.Gen.KernelIdeal.Skeleton
import proofs.«168964_j128849019170_1_alg».proof.Proof.Gen.KernelIdeal.Launch
import proofs.«168964_j128849019170_1_alg».proof.Proof.Gen.KernelIdeal.Points
import proofs.«168964_j128849019170_1_alg».proof.Proof.Gen.KernelIdeal.Frame
import proofs.«168964_j128849019170_1_alg».proof.Proof.Gen.ReferenceIdeal
import proofs.«168964_j128849019170_1_alg».proof.Proof.Gen.ReferenceIdeal.Run
import proofs.«168964_j128849019170_1_alg».proof.Proof.Gen.ReferenceIdeal.Read
import proofs.«168964_j128849019170_1_alg».proof.Proof.Gen.Pre_finite_inputs
import proofs.«168964_j128849019170_1_alg».proof.Proof.RefSide
import proofs.«168964_j128849019170_1_alg».proof.Proof.Tail
import Idealize.ShloMosaic.Adequacy
import Idealize.ShloMosaic.Init

noncomputable section

namespace Cert.Proof

open Idealize.ShloMosaic Idealize.ShloMosaic.TcCoe Idealize.SL.Sem Cert.Triplet

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the two means over the rows of arrays that agree. -/
theorem algebraic : Cert.algebraic_KernelIdeal_ReferenceIdeal := by
  intro m ρ m' ρ' _ hagree
  refine ⟨_, _, Cert.KernelIdeal.Tail.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v11_eq, Cert.ReferenceIdeal.RefValue.loss_eq, (hagree c).1, (hagree c).2.1,
      (hagree c).2.2]
    rfl
  · rw [Cert.ReferenceIdeal.Read.val_main_v15_eq, Cert.ReferenceIdeal.RefValue.acc_eq, (hagree c).1, (hagree c).2.1,
      (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
